-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S16 : Shape := ⟨1, ![16]⟩
abbrev S16x256x256 : Shape := ⟨3, ![16, 256, 256]⟩
abbrev S16x1x256 : Shape := ⟨3, ![16, 1, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S16x256x256 : S_.BroadcastsInDim S16x256x256 (![] : Fin 0 → Fin S16x256x256.rank)
  reducesTo_S16x256x256_S_d0_1_2 : S16x256x256.ReducesTo [0, 1, 2] S_
  bcast_S_S16x1x256 : S_.BroadcastsInDim S16x1x256 (![] : Fin 0 → Fin S16x1x256.rank)
  reducesTo_S16x1x256_S_d0_1_2 : S16x1x256.ReducesTo [0, 1, 2] S_

variable [Facts]

def fn {F : FTy → Type} [FloatOps F] (main_arg0 : FVec F S131072x256 .f32) (main_arg1 : IVec S16 32) (main_arg2 : FVec F S16x256x256 .f32) (main_arg3 : FVec F S16x1x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S16x256x256 .f32 := Host.absf main_arg2
  let main_cst_0 : FVec F S_ .f32 := constant S_ .f32 0x7F800000#32
  let main_v5 : FVec F S16x256x256 .f32 := broadcastInDim S16x256x256 ![] bcast_S_S16x256x256 main_cst_0
  let main_v6 : IVec S16x256x256 1 := cmpf .olt main_v4 main_v5
  let main_c_1 : IVec S_ 1 := constantI S_ 1 1#1
  let main_v7 : IVec S_ 1 := (fun x v => Host.reduce IntOp.andi x v reducesTo_S16x256x256_S_d0_1_2 h_S_) main_v6 main_c_1
  let main_v8 : IVec S_ 1 := andi main_v3 main_v7
  let main_v9 : FVec F S16x1x256 .f32 := Host.absf main_arg3
  let main_cst_2 : FVec F S_ .f32 := constant S_ .f32 0x7F800000#32
  let main_v10 : FVec F S16x1x256 .f32 := broadcastInDim S16x1x256 ![] bcast_S_S16x1x256 main_cst_2
  let main_v11 : IVec S16x1x256 1 := cmpf .olt main_v9 main_v10
  let main_c_3 : IVec S_ 1 := constantI S_ 1 1#1
  let main_v12 : IVec S_ 1 := (fun x v => Host.reduce IntOp.andi x v reducesTo_S16x1x256_S_d0_1_2 h_S_) main_v11 main_c_3
  let main_v13 : IVec S_ 1 := andi main_v8 main_v12
  main_v13
-- ==== Kernel.lean ====
abbrev S131072x256 : Shape := ⟨2, ![131072, 256]⟩
abbrev S16 : Shape := ⟨1, ![16]⟩
abbrev S16x256x256 : Shape := ⟨3, ![16, 256, 256]⟩
abbrev S16x1x256 : Shape := ⟨3, ![16, 1, 256]⟩
abbrev S16x8192x256 : Shape := ⟨3, ![16, 8192, 256]⟩
abbrev S1x2048x256 : Shape := ⟨3, ![1, 2048, 256]⟩
abbrev S1x256x256 : Shape := ⟨3, ![1, 256, 256]⟩
abbrev S1x1x256 : Shape := ⟨3, ![1, 1, 256]⟩
abbrev S2048x256 : Shape := ⟨2, ![2048, 256]⟩
abbrev S256x256 : Shape := ⟨2, ![256, 256]⟩
abbrev S1x256 : Shape := ⟨2, ![1, 256]⟩

abbrev nBuf : Space → Nat
  | .hbm => 7
  | .vmem => 8
  | .smem => 0
  | _ => 0

abbrev bufTy : (tb : Table) → Fin (tcTables nBuf tb) → BufTy
  | .hbm, ⟨0, _⟩ => ⟨S131072x256, .f32⟩
  | .hbm, ⟨1, _⟩ => ⟨S16, .i32⟩
  | .hbm, ⟨2, _⟩ => ⟨S16x256x256, .f32⟩
  | .hbm, ⟨3, _⟩ => ⟨S16x1x256, .f32⟩
  | .hbm, ⟨4, _⟩ => ⟨S16x8192x256, .f32⟩
  | .hbm, ⟨5, _⟩ => ⟨S16x8192x256, .f32⟩
  | .hbm, ⟨6, _⟩ => ⟨S131072x256, .f32⟩
  | .local _ .vmem, ⟨0, _⟩ => ⟨S1x2048x256, .f32⟩
  | .local _ .vmem, ⟨1, _⟩ => ⟨S1x2048x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .f32⟩
  | .local _ .vmem, ⟨5, _⟩ => ⟨S1x1x256, .f32⟩
  | .local _ .vmem, ⟨6, _⟩ => ⟨S1x2048x256, .f32⟩
  | .local _ .vmem, ⟨7, _⟩ => ⟨S1x2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S131072x256_S16x8192x256 : S131072x256.ShapeCasts S16x8192x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2048x256 : S1x256.Broadcasts S2048x256
  shapeCasts_S2048x256_S1x2048x256 : S2048x256.ShapeCasts S1x2048x256
  shapeCasts_S16x8192x256_S131072x256 : S16x8192x256.ShapeCasts S131072x256
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x8192x256.size a
  hwx0_0 : ∀ i : grid0.Coords, EltTy.bits .f32 = 32 ∨ (Rect.block (s := S16x8192x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S16x256x256.size a
  hwx0_1 : ∀ i : grid0.Coords, EltTy.bits .f32 = 32 ∨ (Rect.block (s := S16x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S16x1x256.size a
  hwx0_2 : ∀ i : grid0.Coords, EltTy.bits .f32 = 32 ∨ (Rect.block (s := S16x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S16x8192x256.size a
  hwx0_3 : ∀ i : grid0.Coords, EltTy.bits .f32 = 32 ∨ (Rect.block (s := S16x8192x256) S1x2048x256.size (cc0_transform_3 i) (hinb0_3 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_v0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S16 : Shape := ⟨1, ![16]⟩
abbrev S16x256x256 : Shape := ⟨3, ![16, 256, 256]⟩
abbrev S16x1x256 : Shape := ⟨3, ![16, 1, 256]⟩
abbrev S16x8192x256 : Shape := ⟨3, ![16, 8192, 256]⟩

abbrev nBuf : Space → Nat
  | .hbm => 9
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S16, .i32⟩
  | .hbm, ⟨2, _⟩ => ⟨S16x256x256, .f32⟩
  | .hbm, ⟨3, _⟩ => ⟨S16x1x256, .f32⟩
  | .hbm, ⟨4, _⟩ => ⟨S16x8192x256, .f32⟩
  | .hbm, ⟨5, _⟩ => ⟨S16x8192x256, .f32⟩
  | .hbm, ⟨6, _⟩ => ⟨S16x8192x256, .f32⟩
  | .hbm, ⟨7, _⟩ => ⟨S16x8192x256, .f32⟩
  | .hbm, ⟨8, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  shapeCasts_S131072x256_S16x8192x256 : S131072x256.ShapeCasts S16x8192x256
  bcast_S16x1x256_S16x8192x256_0_1_2 : S16x1x256.BroadcastsInDim S16x8192x256 (![0, 1, 2] : Fin 3 → Fin S16x8192x256.rank)
  shapeCasts_S16x8192x256_S131072x256 : S16x8192x256.ShapeCasts S131072x256
  dot_S16x8192x256_S16x256x256_S16x8192x256_2_2_1_1_0_0_wf : DotDims.WF S16x8192x256 S16x256x256 S16x8192x256 [2] [2] [1] [1] [0] [0]

variable [Facts₀]

def dot_S16x8192x256_S16x256x256_S16x8192x256_2_2_1_1_0_0 : DotDims S16x8192x256 S16x256x256 S16x8192x256 where
  lhsContracting := [2]
  rhsContracting := [2]
  lhsNonContracting := [1]
  rhsNonContracting := [1]
  lhsBatch := [0]
  rhsBatch := [0]
  wf := dot_S16x8192x256_S16x256x256_S16x8192x256_2_2_1_1_0_0_wf

class Facts : Prop extends Facts₀ where

variable [Facts]
-- ==== Proof.GroupedAffine.lean ====
/-
  The function both programs compute, on the rows regrouped as [16, 8192, 256]: the 131072 rows of `x` fall into
  16 consecutive groups of 8192, group `n` has its own 256 × 256 matrix `w n` and its own bias row `b n 0`, and
  entry `(n, g, o)` of the result is the inner product of row `g` of group `n` with ROW `o` of that group's matrix
  (the matrix is applied transposed), plus the bias entry `o`:

      out (n, g, o) = ∑ k < 256, x (n, g, k) · w (n, o, k)  +  b (n, 0, o).

  On the extended reals this is a finite sum of products and one addition; nothing in it is rearranged between the
  two programs beyond the name of the summation index, so no finiteness of the inputs is used anywhere.
-/
import Idealize.ShloMosaic.PureOps.Ideal
import Idealize.ShloMosaic.Lib.ValueIdx

noncomputable section

namespace Cert.GroupedAffine

open Idealize.ShloMosaic Idealize.ShloMosaic.ValueIdx

/-- Per-group affine map, applied row by row: `(n, g, o) ↦ ∑ k, x (n, g, k) · w (n, o, k) + b (n, 0, o)`. -/
def groupedAffine (x : (⟨3, ![16, 8192, 256]⟩ : Shape).Idx → EReal) (w : (⟨3, ![16, 256, 256]⟩ : Shape).Idx → EReal)
    (b : (⟨3, ![16, 1, 256]⟩ : Shape).Idx → EReal) : (⟨3, ![16, 8192, 256]⟩ : Shape).Idx → EReal :=
  fun j => (∑ k : Fin 256, x (ix3 (j 0) (j 1) k) * w (ix3 (j 0) (j 2) k)) + b (ix3 (j 0) 0 (j 2))

/-- The same, read at an index given by its three coordinates. -/
theorem groupedAffine_ix3 (x : (⟨3, ![16, 8192, 256]⟩ : Shape).Idx → EReal) (w : (⟨3, ![16, 256, 256]⟩ : Shape).Idx → EReal)
    (b : (⟨3, ![16, 1, 256]⟩ : Shape).Idx → EReal) (n : Fin 16) (g : Fin 8192) (o : Fin 256) :
    groupedAffine x w b (ix3 n g o) = (∑ k : Fin 256, x (ix3 n g k) * w (ix3 n o k)) + b (ix3 n 0 o) := rfl

end Cert.GroupedAffine

end
-- ==== Proof.ReferenceValue.lean ====
/-
  The reference, read one operation at a time: after regrouping the rows, its batched contraction (batch axis the
  group, contracted axis the 256 input features of both operands) is at index `(n, g, o)` the sum over `k` of
  `x (n, g, k) · w (n, o, k)`; the bias, broadcast along the rows of a group, is `b (n, 0, o)` there; their sum is the
  per-group affine map of `GroupedAffine`. The final regrouping back to [131072, 256] is left unopened: the kernel ends
  with the very same one.
-/
import proofs.«124402_j76802605187186_1_alg».proof.Proof.Gen.ReferenceIdeal.Read
import proofs.«124402_j76802605187186_1_alg».proof.Proof.GroupedAffine

noncomputable section

namespace Cert.ReferenceIdeal.RefValue

open Cert.ReferenceIdeal Cert.ReferenceIdeal.Gen Cert.ReferenceIdeal.Read Idealize.ShloMosaic Idealize.ShloMosaic.ValueIdx
open Cert.GroupedAffine

/-- The left operand's index of the contraction is `(n, g, k)`. -/
theorem lidx_eq (i : S16x8192x256.Idx) (k : Fin 256) : lidx_main_v1 i k = ix3 (i 0) (i 1) k :=
  funext fun a => Fin.ext (by match a with | ⟨0, _⟩ => rfl | ⟨1, _⟩ => rfl | ⟨2, _⟩ => rfl)

/-- The right operand's is `(n, o, k)`: row `o` of group `n`'s matrix. -/
theorem ridx_eq (i : S16x8192x256.Idx) (k : Fin 256) : ridx_main_v1 i k = ix3 (i 0) (i 2) k :=
  funext fun a => Fin.ext (by match a with | ⟨0, _⟩ => rfl | ⟨1, _⟩ => rfl | ⟨2, _⟩ => rfl)

/-- The broadcast bias is read at `(n, 0, o)`. -/
theorem bidx_eq (i : S16x8192x256.Idx) : idx_main_v2 i = ix3 (i 0) 0 (i 2) :=
  funext fun a => Fin.ext (by match a with | ⟨0, _⟩ => rfl | ⟨1, _⟩ => rfl | ⟨2, _⟩ => rfl)

/-- Before its last regrouping the reference holds the per-group affine map of the regrouped rows. -/
theorem sum_stage_eq (x0 : (⟨S131072x256, .f32⟩ : BufTy).Contents (Elt Ideal)) (x2 : (⟨S16x256x256, .f32⟩ : BufTy).Contents (Elt Ideal))
    (x3 : (⟨S16x1x256, .f32⟩ : BufTy).Contents (Elt Ideal)) :
    val_main_v3 (F := Ideal) x0 x2 x3 = groupedAffine (val_main_v0 (F := Ideal) x0) x2 x3 := by
  funext i
  rw [val_main_v3_apply, val_main_v1_apply, val_main_v2_apply]
  simp only [lidx_eq, ridx_eq, bidx_eq]
  rfl

end Cert.ReferenceIdeal.RefValue

end
-- ==== Proof.KernelPayload.lean ====
/-
  What one grid point's body stores, read at an index. The body takes a block of 2048 regrouped rows of one group
  (`xb`, [1, 2048, 256]), that group's whole matrix (`wb`, [1, 256, 256]) and its bias row (`bb`, [1, 1, 256]); it drops
  the leading unit axis of each, narrows the two matrix operands' format (the identity on extended reals), contracts
  the 256 input features of both into a zero accumulator (so row `r` of the block meets ROW `o` of the matrix), adds
  the bias row repeated down the 2048 rows, and puts the unit axis back. Entry `(0, r, o)` of what it stores is
  therefore

      ∑ k < 256, xb (0, r, k) · wb (0, o, k)  +  bb (0, 0, o).
-/
import proofs.«124402_j76802605187186_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The contraction's operand indices, axis by axis -/

/-- The left operand is read at the output's row … -/
theorem lhs_0 (i : S2048x256.Idx) (q : dot_S2048x256_S256x256_S2048x256_1_1_0_0_n_n.contr.Idx) :
    (dot_S2048x256_S256x256_S2048x256_1_1_0_0_n_n.lhsIdx i q 0).val = (i 0).val := by
  unfold DotDims.lhsIdx
  rw [dif_neg (show ¬(0 : Fin S2048x256.rank) ∈ dot_S2048x256_S256x256_S2048x256_1_1_0_0_n_n.lhsBatch by decide), dif_pos (show (0 : Fin S2048x256.rank) ∈ dot_S2048x256_S256x256_S2048x256_1_1_0_0_n_n.lhsNonContracting by decide)]
  rfl
/-- … and the contracted feature; -/
theorem lhs_1 (i : S2048x256.Idx) (q : dot_S2048x256_S256x256_S2048x256_1_1_0_0_n_n.contr.Idx) :
    (dot_S2048x256_S256x256_S2048x256_1_1_0_0_n_n.lhsIdx i q 1).val = (q ⟨0, by decide⟩).val :=
  dot_S2048x256_S256x256_S2048x256_1_1_0_0_n_n.lhsIdx_val_of_single rfl i q
/-- the right operand at the output's COLUMN, as its row index, … -/
theorem rhs_0 (i : S2048x256.Idx) (q : dot_S2048x256_S256x256_S2048x256_1_1_0_0_n_n.contr.Idx) :
    (dot_S2048x256_S256x256_S2048x256_1_1_0_0_n_n.rhsIdx i q 0).val = (i 1).val := by
  unfold DotDims.rhsIdx
  rw [dif_neg (show ¬(0 : Fin S256x256.rank) ∈ dot_S2048x256_S256x256_S2048x256_1_1_0_0_n_n.rhsBatch by decide), dif_pos (show (0 : Fin S256x256.rank) ∈ dot_S2048x256_S256x256_S2048x256_1_1_0_0_n_n.rhsNonContracting by decide)]
  rfl
/-- … and the contracted feature. -/
theorem rhs_1 (i : S2048x256.Idx) (q : dot_S2048x256_S256x256_S2048x256_1_1_0_0_n_n.contr.Idx) :
    (dot_S2048x256_S256x256_S2048x256_1_1_0_0_n_n.rhsIdx i q 1).val = (q ⟨0, by decide⟩).val :=
  dot_S2048x256_S256x256_S2048x256_1_1_0_0_n_n.rhsIdx_val_of_single rfl i q

/-- The contraction into the zero accumulator, at `(r, o)`: row `r` of the left operand against row `o` of the right. -/
theorem contraction_apply (a : FVec Ideal S2048x256 .bf16) (b : FVec Ideal S256x256 .bf16) (r : Fin 2048) (o : Fin 256) :
    matmul dot_S2048x256_S256x256_S2048x256_1_1_0_0_n_n none a b (constant S2048x256 .f32 0x00000000#32) (ix2 r o)
      = ∑ k : Fin 256, a (ix2 r k) * b (ix2 o k) := by
  simp only [matmul]
  rw [Ideal.matmul_constant_zero_apply, ← Equiv.sum_comp (ValueIdx.contrEquiv1 dot_S2048x256_S256x256_S2048x256_1_1_0_0_n_n 256 rfl rfl).symm]
  refine Finset.sum_congr rfl fun k _ => ?_
  have hk := ValueIdx.contrEquiv1_symm_val dot_S2048x256_S256x256_S2048x256_1_1_0_0_n_n 256 rfl rfl k
  have el : dot_S2048x256_S256x256_S2048x256_1_1_0_0_n_n.lhsIdx (ix2 r o) ((ValueIdx.contrEquiv1 dot_S2048x256_S256x256_S2048x256_1_1_0_0_n_n 256 rfl rfl).symm k) = ix2 r k := funext fun a => Fin.ext (by
    match a with
    | ⟨0, _⟩ => exact lhs_0 _ _
    | ⟨1, _⟩ => exact (lhs_1 _ _).trans hk)
  have er : dot_S2048x256_S256x256_S2048x256_1_1_0_0_n_n.rhsIdx (ix2 r o) ((ValueIdx.contrEquiv1 dot_S2048x256_S256x256_S2048x256_1_1_0_0_n_n 256 rfl rfl).symm k) = ix2 o k := funext fun a => Fin.ext (by
    match a with
    | ⟨0, _⟩ => exact rhs_0 _ _
    | ⟨1, _⟩ => exact (rhs_1 _ _).trans hk)
  rw [el, er]

/-! ## The layout steps -/

/-- Dropping the block's leading unit axis: `(r, k)` is `(0, r, k)`. -/
theorem rows_apply (xb : Vec Ideal S1x2048x256 .f32) (r : Fin 2048) (k : Fin 256) :
    shapeCast S2048x256 xb shapeCasts_S1x2048x256_S2048x256 (ix2 r k) = xb (ix3 0 r k) :=
  shapeCast_apply xb shapeCasts_S1x2048x256_S2048x256 (ix2 r k) (ix3 0 r k)
    (by rewrite [Shape.rowMajor_val_three, Shape.rowMajor_val_two]; show ((0 : Fin 1).val * 2048 + r.val) * 256 + k.val = r.val * 256 + k.val; simp)

/-- The same for the matrix. -/
theorem matrix_apply (wb : Vec Ideal S1x256x256 .f32) (o : Fin 256) (k : Fin 256) :
    shapeCast S256x256 wb shapeCasts_S1x256x256_S256x256 (ix2 o k) = wb (ix3 0 o k) :=
  shapeCast_apply wb shapeCasts_S1x256x256_S256x256 (ix2 o k) (ix3 0 o k)
    (by rewrite [Shape.rowMajor_val_three, Shape.rowMajor_val_two]; show ((0 : Fin 1).val * 256 + o.val) * 256 + k.val = o.val * 256 + k.val; simp)

/-- The bias row without its leading unit axis, repeated down the rows: at `(r, o)` it is entry `(0, 0, o)`. -/
theorem bias_apply (bb : Vec Ideal S1x1x256 .f32) (r : Fin 2048) (o : Fin 256) :
    broadcastTo S2048x256 (shapeCast S1x256 bb shapeCasts_S1x1x256_S1x256) broadcasts_S1x256_S2048x256 (ix2 r o) = bb (ix3 0 0 o) := by
  rw [broadcastTo_apply _ broadcasts_S1x256_S2048x256 (ix2 r o) (ix2 0 o) (fun a => match a with
    | ⟨0, _⟩ => by show (0 : Nat) = if (1 : Nat) = 1 then 0 else r.val; rw [if_pos rfl]
    | ⟨1, _⟩ => by show o.val = if (256 : Nat) = 1 then 0 else o.val; rw [if_neg (by decide)])]
  exact shapeCast_apply bb shapeCasts_S1x1x256_S1x256 (ix2 0 o) (ix3 0 0 o)
    (by rewrite [Shape.rowMajor_val_three, Shape.rowMajor_val_two]; show ((0 : Fin 1).val * 1 + (0 : Fin 1).val) * 256 + o.val = (0 : Fin 1).val * 256 + o.val; simp)

/-! ## The stored value -/

/-- Entry `(z, r, o)` of what the body stores (`z` ranges over the one value of the unit axis). -/
theorem stored_apply (xb : Vec Ideal S1x2048x256 .f32) (wb : Vec Ideal S1x256x256 .f32) (bb : Vec Ideal S1x1x256 .f32)
    (z : Fin 1) (r : Fin 2048) (o : Fin 256) :
    k0_pay1 (F := Ideal) xb wb bb (ix3 z r o) = (∑ k : Fin 256, xb (ix3 0 r k) * wb (ix3 0 o k)) + bb (ix3 0 0 o) := by
  unfold k0_pay1
  have hz : z.val = 0 := by have := z.isLt; omega
  rw [shapeCast_apply _ shapeCasts_S2048x256_S1x2048x256 (ix3 z r o) (ix2 r o)
    (by rewrite [Shape.rowMajor_val_two, Shape.rowMajor_val_three]; show r.val * 256 + o.val = (z.val * 2048 + r.val) * 256 + o.val; rw [hz]; simp)]
  rw [addf_apply, contraction_apply, bias_apply]
  refine congrArg (· + bb (ix3 0 0 o)) (Finset.sum_congr rfl fun k _ => ?_)
  rw [truncf_apply, truncf_apply, rows_apply, matrix_apply]

end Cert.KernelIdeal.Payload

end
-- ==== Proof.KernelArray.lean ====
/-
  From the grid points' blocks to the kernel's result. The grid is 16 × 4: point `(n, q)` reads rows
  `2048 q … 2048 q + 2047` of group `n` of the regrouped `x`, all of group `n`'s matrix and bias row, and writes the same
  rows of group `n` of the output. So what it writes back is the restriction to its block of ONE function of the
  arrays the region finds — the per-group affine map of `GroupedAffine` — and the 64 blocks tile the output
  ([16, 8192, 256] = 16 × (4 · 2048) × 256), hence the output array after the region IS that function. The host
  regroups `x` before the region and the output after it; both regroupings are left as they are printed.
-/
import proofs.«124402_j76802605187186_1_alg».proof.Proof.Gen.KernelIdeal.Frame
import proofs.«124402_j76802605187186_1_alg».proof.Proof.KernelPayload
import proofs.«124402_j76802605187186_1_alg».proof.Proof.GroupedAffine
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem Idealize.ShloMosaic.StableHlo
open Cert.GroupedAffine

variable (m : (ℓ : Loc nD τ sig) → Buf (Elt Ideal) ℓ) (ρ : Dev nD → PrngReg)

theorem hz : (![0, 0, 0] : Fin 3 → Nat) = fun _ => 0 := funext fun a => by fin_cases a <;> rfl

/-- The three arrays as the region finds them, at their literal types: the regrouped rows, the matrices, the bias rows. -/
abbrev xarr (c : Dev nD) : Vec Ideal S16x8192x256 .f32 := V m c main_v0
abbrev warr (c : Dev nD) : Vec Ideal S16x256x256 .f32 := V m c main_arg2
abbrev barr (c : Dev nD) : Vec Ideal S16x1x256 .f32 := V m c main_arg3

/-- The block indices over the grid: every input moves with the output on the group axis, `x` also on the row-block
    axis; the matrix and the bias sit at block 0 of their other axes; the output's indices stay in 16 × 4 × 1. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) ≤ 3 ∧ win0_3.index t (2 : Fin 3) = 0 :=
  (by decide +kernel : ∀ t : Fin grid0.N, _)

/-- Every (group, row block) is some point's. -/
theorem idx_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-- WHAT POINT `t` WRITES BACK is block `t` of the per-group affine map of the arrays as the region finds them. -/
theorem flushed_eq (c : Dev nD) (t : Fin cfg0.N) :
    (dats m 0 c).flushed 3 t = ((cfg0.win 3).blk t).view.read (Elt Ideal) (groupedAffine (xarr m c) (warr m c) (barr m c)) := by
  show (cfg0.win 3).cut (grid0.coords t) ((dats m 0 c).after 3 t) = _
  rw [after0_3]
  unfold out0_3
  rw [View.canon_unit_zero hz]
  simp only [View.ld_unit_zero (S := S1x2048x256) hz, View.ld_unit_zero (S := S1x256x256) hz, View.ld_unit_zero (S := S1x1x256) hz]
  obtain ⟨e00, e01, e02, e10, e11, e12, e20, e21, e22, b0, b1, b2⟩ := idx_facts t
  funext j
  obtain ⟨z, r, o, rfl⟩ : ∃ (z : Fin 1) (r : Fin 2048) (o : Fin 256), j = ix3 z r o := ⟨j 0, j 1, j 2, eq_ix3 j⟩
  have hzv : z.val = 0 := by have := z.isLt; omega
  refine (Payload.stored_apply (iblk m c 0 t) (iblk m c 1 t) (iblk m c 2 t) z r o).trans ?_
  show _ = (∑ k : Fin 256, xarr m c (ix3 ((((cfg0.win 3).blk t).view.emb (ix3 z r o)) 0) ((((cfg0.win 3).blk t).view.emb (ix3 z r o)) 1) k)
      * warr m c (ix3 ((((cfg0.win 3).blk t).view.emb (ix3 z r o)) 0) ((((cfg0.win 3).blk t).view.emb (ix3 z r o)) 2) k))
    + barr m c (ix3 ((((cfg0.win 3).blk t).view.emb (ix3 z r o)) 0) 0 ((((cfg0.win 3).blk t).view.emb (ix3 z r o)) 2))
  have hx : ∀ k : Fin 256, iblk m c 0 t (ix3 0 r k) = xarr m c (ix3 ((((cfg0.win 3).blk t).view.emb (ix3 z r o)) 0) ((((cfg0.win 3).blk t).view.emb (ix3 z r o)) 1) k) := by
    intro k
    show xarr m c (((cfg0.win 0).blk t).view.emb (ix3 0 r k)) = _
    refine congrArg (xarr m c) (funext fun a => Fin.ext ?_)
    match a with
    | ⟨0, _⟩ => show win0_0.index t (0 : Fin 3) * 1 + 1 * (0 : Fin 1).val = win0_3.index t (0 : Fin 3) * 1 + 1 * z.val; rw [hzv, e00]; rfl
    | ⟨1, _⟩ => show win0_0.index t (1 : Fin 3) * 2048 + 1 * r.val = win0_3.index t (1 : Fin 3) * 2048 + 1 * r.val; rw [e01]
    | ⟨2, _⟩ => show win0_0.index t (2 : Fin 3) * 256 + 1 * k.val = k.val; rw [e02]; omega
  have hw : ∀ k : Fin 256, iblk m c 1 t (ix3 0 o k) = warr m c (ix3 ((((cfg0.win 3).blk t).view.emb (ix3 z r o)) 0) ((((cfg0.win 3).blk t).view.emb (ix3 z r o)) 2) k) := by
    intro k
    show warr m c (((cfg0.win 1).blk t).view.emb (ix3 0 o k)) = _
    refine congrArg (warr m c) (funext fun a => Fin.ext ?_)
    match a with
    | ⟨0, _⟩ => show win0_1.index t (0 : Fin 3) * 1 + 1 * (0 : Fin 1).val = win0_3.index t (0 : Fin 3) * 1 + 1 * z.val; rw [hzv, e10]; rfl
    | ⟨1, _⟩ => show win0_1.index t (1 : Fin 3) * 256 + 1 * o.val = win0_3.index t (2 : Fin 3) * 256 + 1 * o.val; rw [e11, b2]
    | ⟨2, _⟩ => show win0_1.index t (2 : Fin 3) * 256 + 1 * k.val = k.val; rw [e12]; omega
  have hb : iblk m c 2 t (ix3 0 0 o) = barr m c (ix3 ((((cfg0.win 3).blk t).view.emb (ix3 z r o)) 0) 0 ((((cfg0.win 3).blk t).view.emb (ix3 z r o)) 2)) := by
    show barr m c (((cfg0.win 2).blk t).view.emb (ix3 0 0 o)) = _
    refine congrArg (barr m c) (funext fun a => Fin.ext ?_)
    match a with
    | ⟨0, _⟩ => show win0_2.index t (0 : Fin 3) * 1 + 1 * (0 : Fin 1).val = win0_3.index t (0 : Fin 3) * 1 + 1 * z.val; rw [hzv, e20]; rfl
    | ⟨1, _⟩ => show win0_2.index t (1 : Fin 3) * 1 + 1 * (0 : Fin 1).val = (0 : Fin 1).val; rw [e21]; rfl
    | ⟨2, _⟩ => show win0_2.index t (2 : Fin 3) * 256 + 1 * o.val = win0_3.index t (2 : Fin 3) * 256 + 1 * o.val; rw [e22, b2]
  rw [hb]
  exact congrArg (· + _) (Finset.sum_congr rfl fun k _ => by rw [hx k, hw k])

/-- An index of the output is in point `t`'s block iff each coordinate is in the block's range on its axis. -/
theorem mem_blk (t : Fin cfg0.N) (i : S16x8192x256.Idx) :
    i ∈ ((cfg0.win 3).blk t).view.set ↔ ∀ a : Fin 3, win0_3.index t a * S1x2048x256.size a ≤ (i a).val ∧ (i a).val < win0_3.index t a * S1x2048x256.size a + S1x2048x256.size a := by
  show i ∈ ((View.whole main_v1).slice (win0_3.rect t)).set ↔ _
  rw [View.set_slice_whole, Rect.mem_set_unit]
  exact Iff.rfl

/-- The 64 blocks tile the output: index `(n, g, o)` lies in the block of the point at group `n`, row block `g / 2048`. -/
theorem cover (i : S16x8192x256.Idx) : ∃ t : Fin cfg0.N, (cfg0.win 3).flush t = true ∧ i ∈ ((cfg0.win 3).blk t).view.set := by
  have hi0 : (i 0).val < 16 := (i 0).isLt
  have hi1 : (i 1).val < 8192 := (i 1).isLt
  have hi2 : (i 2).val < 256 := (i 2).isLt
  obtain ⟨t, ht⟩ := idx_onto ⟨(i 0).val, hi0⟩ ⟨(i 1).val / 2048, by omega⟩
  have q0 : win0_3.index t (0 : Fin 3) = (i 0).val := congrFun ht 0
  have q1 : win0_3.index t (1 : Fin 3) = (i 1).val / 2048 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 256 ≤ (i 2).val ∧ (i 2).val < win0_3.index t (2 : Fin 3) * 256 + 256; omega

/-- THE OUTPUT ARRAY after the region: the per-group affine map of the arrays the region finds. -/
theorem final (c : Dev nD) :
    (dats m 0 c).arrAt 3 cfg0.N = groupedAffine (xarr m c) (warr m c) (barr m c) :=
  (dats m 0 c).arrAt_eq_of_cover 3 _ (fun t _ => flushed_eq m c t) cover

/-- The region finds `x` regrouped by the host line before it. -/
theorem xarr_eq (c : Dev nD) :
    xarr m c = shapeCast S16x8192x256 (m ((c.tc : Thread nD τ).loc main_arg0)) shapeCasts_S131072x256_S16x8192x256 := by
  show StableHlo.after hostOps0 (fun b => m (c, b)) (Proc.devRef .tc main_v0) = _
  after_results
  rfl

/-- It finds the matrices and the bias rows as launched. -/
theorem warr_eq (c : Dev nD) : warr m c = m ((c.tc : Thread nD τ).loc main_arg2) := V_main_arg2 m c
theorem barr_eq (c : Dev nD) : barr m c = m ((c.tc : Thread nD τ).loc main_arg3) := V_main_arg3 m c

/-- The program's result after the host line that follows the region: the output array regrouped back. -/
theorem result_eq (c : Dev nD) :
    Pipeline.afterTail₀ cfgs (dats m) 0 (V0 m) [hostOps1] c main_v2
      = shapeCast S131072x256 (groupedAffine (shapeCast S16x8192x256 (m ((c.tc : Thread nD τ).loc main_arg0)) shapeCasts_S131072x256_S16x8192x256)
          (m ((c.tc : Thread nD τ).loc main_arg2)) (m ((c.tc : Thread nD τ).loc main_arg3))) shapeCasts_S16x8192x256_S131072x256 := by
  unfold Pipeline.afterTail₀
  show StableHlo.after hostOps1 _ (Proc.devRef .tc main_v2) = _
  after_results
  refine congrArg (fun y => shapeCast S131072x256 y shapeCasts_S16x8192x256_S131072x256) ?_
  refine ((Pipeline.withArrays_arr spec0 launch0.win.arr_inj c _ _ 3).trans (final m c)).trans ?_
  rw [xarr_eq, warr_eq, barr_eq]

/-- THE KERNEL'S RUN, read: every weakly fair execution terminates with the result at the regrouped per-group affine
    map of the arguments, and the arguments unchanged. -/
theorem run : θ_run defs (onTc (τ := τ) (main (F := Ideal))) ⟨m, fun _ => 0, ρ⟩ fun r => ∀ c : Dev nD,
      r.2.mem ((c.tc : Thread nD τ).loc main_v2)
        = shapeCast S131072x256 (groupedAffine (shapeCast S16x8192x256 (m ((c.tc : Thread nD τ).loc main_arg0)) shapeCasts_S131072x256_S16x8192x256)
            (m ((c.tc : Thread nD τ).loc main_arg2)) (m ((c.tc : Thread nD τ).loc main_arg3))) shapeCasts_S16x8192x256_S131072x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩) (run_main m ρ)

end Cert.KernelIdeal.ArrayValue

end
-- ==== Proof.lean ====
/- The claim: a grouped linear layer. The 131072 rows of `x` fall into 16 consecutive groups of 8192 rows; group `n` has
   its own 256 × 256 matrix and bias row, and both programs compute, for row `g` of group `n` and output feature `o`,

       ∑ k < 256, x (n, g, k) · w (n, o, k)  +  b (n, 0, o)

   on the rows regrouped as [16, 8192, 256], then regroup the result back to [131072, 256] (neither reads the group
   sizes it is also handed). The kernel does it block by block — grid point `(n, q)` takes rows 2048 q … 2048 q + 2047
   of group `n`, contracts them with that group's matrix into a zero accumulator and adds the bias row — and the 64
   blocks tile the output; the reference does it with one batched contraction and a broadcast sum. At the ideal
   instance the narrowing of the matrix operands is the identity and both contractions are the same finite sum, so the
   two results are one function of the arguments (`GroupedAffine.groupedAffine`) followed by the same regrouping: nothing
   is rearranged, and the inputs' finiteness is never used.

   The modules: Proof/GroupedAffine.lean (that function), Proof/ReferenceValue.lean (the reference's stages are it),
   Proof/KernelPayload.lean (what a grid point stores, at an index), Proof/KernelArray.lean (the blocks tile the output;
   the host lines around the region; the kernel's run with its result named). Here: the three frames, the (empty)
   idealization ledger, and the two runs side by side. -/
import proofs.«124402_j76802605187186_1_alg».proof.Defs
import proofs.«124402_j76802605187186_1_alg».proof.Proof.Gen.Kernel
import proofs.«124402_j76802605187186_1_alg».proof.Proof.Gen.Kernel.Skeleton
import proofs.«124402_j76802605187186_1_alg».proof.Proof.Gen.Kernel.Launch
import proofs.«124402_j76802605187186_1_alg».proof.Proof.Gen.Kernel.Points
import proofs.«124402_j76802605187186_1_alg».proof.Proof.Gen.Kernel.Frame
import proofs.«124402_j76802605187186_1_alg».proof.Proof.Gen.KernelIdeal
import proofs.«124402_j76802605187186_1_alg».proof.Proof.Gen.KernelIdeal.Skeleton
import proofs.«124402_j76802605187186_1_alg».proof.Proof.Gen.KernelIdeal.Launch
import proofs.«124402_j76802605187186_1_alg».proof.Proof.Gen.KernelIdeal.Points
import proofs.«124402_j76802605187186_1_alg».proof.Proof.Gen.KernelIdeal.Frame
import proofs.«124402_j76802605187186_1_alg».proof.Proof.Gen.ReferenceIdeal
import proofs.«124402_j76802605187186_1_alg».proof.Proof.Gen.Pre_finite_inputs
import proofs.«124402_j76802605187186_1_alg».proof.Proof.Gen.ReferenceIdeal.Run
import proofs.«124402_j76802605187186_1_alg».proof.Proof.Gen.ReferenceIdeal.Read
import proofs.«124402_j76802605187186_1_alg».proof.Proof.ReferenceValue
import proofs.«124402_j76802605187186_1_alg».proof.Proof.KernelArray
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the regrouping of the per-group affine map of arguments that agree: the kernel by its
    blocks (`ArrayValue.run`), the reference by its stages (`RefValue.sum_stage_eq`) under the same last regrouping. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2.1, (hagree c).2.2.2]
  exact congrArg (fun y => shapeCast Cert.ReferenceIdeal.S131072x256 y Cert.ReferenceIdeal.Facts₀.shapeCasts_S16x8192x256_S131072x256)
    (Cert.ReferenceIdeal.RefValue.sum_stage_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
